-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S_ : Shape := ⟨0, ![]⟩
abbrev S4x1x1 : Shape := ⟨3, ![4, 1, 1]⟩
abbrev S1x512x3 : Shape := ⟨3, ![1, 512, 3]⟩
abbrev S1x4096x3 : Shape := ⟨3, ![1, 4096, 3]⟩
abbrev S1x1x1 : Shape := ⟨3, ![1, 1, 1]⟩
abbrev S1x1 : Shape := ⟨2, ![1, 1]⟩
abbrev S1x4096 : Shape := ⟨2, ![1, 4096]⟩
abbrev S512x3 : Shape := ⟨2, ![512, 3]⟩
abbrev S4096x3 : Shape := ⟨2, ![4096, 3]⟩
abbrev S3x4096 : Shape := ⟨2, ![3, 4096]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S1 : Shape := ⟨1, ![1]⟩
abbrev S4 : Shape := ⟨1, ![4]⟩

abbrev nBuf : Space → Nat
  | .hbm => 14
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096x3, .f32⟩
  | .hbm, ⟨4, _⟩ => ⟨S4x4096x3, .f32⟩
  | .hbm, ⟨5, _⟩ => ⟨S_, .f32⟩
  | .hbm, ⟨6, _⟩ => ⟨S4x4096x3, .f32⟩
  | .hbm, ⟨7, _⟩ => ⟨S4x4096x3, .f32⟩
  | .hbm, ⟨8, _⟩ => ⟨S4x1x1, .f32⟩
  | .hbm, ⟨9, _⟩ => ⟨S4, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S4x4096x3 : S_.BroadcastsInDim S4x4096x3 (![] : Fin 0 → Fin S4x4096x3.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  bitsLt_bf16_f32 : FTy.bits .bf16 < FTy.bits .f32
  transposes_S4096x3_p1_0_S3x4096 : S4096x3.Transposes [1, 0] S3x4096
  reduces_S512x3_S512 : S512x3.Reduces [1] S512
  shapeCasts_S512_S512x1 : S512.ShapeCasts S512x1
  reduces_S4096x3_S4096 : S4096x3.Reduces [1] S4096
  shapeCasts_S4096_S4096x1 : S4096.ShapeCasts S4096x1
  transposes_S4096x1_p1_0_S1x4096 : S4096x1.Transposes [1, 0] S1x4096
  broadcasts_S512x1_S512x4096 : S512x1.Broadcasts S512x4096
  broadcasts_S1x4096_S512x4096 : S1x4096.Broadcasts S512x4096
  reduces_S512x4096_S512 : S512x4096.Reduces [1] S512
  reduces_S512x4096_S4096 : S512x4096.Reduces [0] S4096
  shapeCasts_S4096_S1x4096 : S4096.ShapeCasts S1x4096
  reduces_S512x1_S1 : S512x1.Reduces [0] S1
  shapeCasts_S1_S1x1 : S1.ShapeCasts S1x1
  reduces_S1x4096_S1 : S1x4096.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4 : S4x1x1.ShapeCasts S4
  reducesTo_S4_S_d0 : S4.ReducesTo [0] S_
  h_S_ : 0 < S_.numel
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_v1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4 : Shape := ⟨1, ![4]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096x3, .f32⟩
  | .hbm, ⟨4, _⟩ => ⟨S4x4096x3, .f32⟩
  | .hbm, ⟨5, _⟩ => ⟨S_, .f32⟩
  | .hbm, ⟨6, _⟩ => ⟨S4x4096x3, .f32⟩
  | .hbm, ⟨7, _⟩ => ⟨S4x4096x3, .f32⟩
  | .hbm, ⟨8, _⟩ => ⟨S4x4096x3, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S4x4096x3, .f32⟩
  | .hbm, ⟨13, _⟩ => ⟨S_, .f32⟩
  | .hbm, ⟨14, _⟩ => ⟨S4x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S_S4x4096x3 : S_.BroadcastsInDim S4x4096x3 (![] : Fin 0 → Fin S4x4096x3.rank)
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Pieces.lean ====
/-
  What one run of the kernel body leaves in the two buffers it carries from one grid point to the next and in the
  output block, as terms over the body's named pure values.

  At the first tile of a batch the body resets the running total to zero and the running column minima to +∞ before
  it uses them, so it leaves: the total after the tile from zero, the column minima of the tile against +∞, and the
  output formed from these two. At a later tile it starts from what the tile before left. Each buffer is written
  whole, so the last store decides its contents, and a load after a whole store reads the stored value.
-/
import proofs.«129061_j11063835755244_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Cert.KernelIdeal Cert.KernelIdeal.Gen
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after a list of stores whose last one wrote the whole buffer reads that store's
    value, whatever the earlier stores were. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  subst h
  rw [View.readCov_eq_canon_ld _ _ _ (fun y => ⟨_, List.mem_cons_self, View.mem_set_unit_zero rfl inb y⟩),
    View.canon_cons_unit_zero rfl, View.ld_unit_zero rfl]

/-- First tile of a batch: the running total is the tile's row-minimum sum added to zero. -/
theorem total_first (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x4096 .f32) (harg6 : arg6.IsWhole) (hc0 : cond0_0 i)
    (x0 : Vec F S1x512x3 .f32) (x1 : Vec F S1x4096x3 .f32) :
    sout0_A_0 c i arg2 harg2 arg3 harg3 arg4 harg4 arg5 harg5 arg6 harg6 hc0 x0 x1 = k0_pay7 x0 x1 (k0_pay3 (F := F)) := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_cons_unit_zero (S := S1x1) hz2]
  simp only [View.readAt_eq_ld, harg2.read_unread, harg3.read_unread, View.ld_unit_zero (S := S1x512x3) hz3,
    View.ld_unit_zero (S := S1x4096x3) hz3, View.ld_unit_zero (S := S1x1) hz2, View.ld_unit_zero (S := S1x4096) hz2,
    readCov_cons_unit_zero (S := S1x1) _ hz2, readCov_cons_unit_zero (S := S1x4096) _ hz2]

/-- First tile of a batch: the running column minima are the tile's against +∞. -/
theorem colmin_first (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x4096 .f32) (harg6 : arg6.IsWhole) (hc0 : cond0_0 i)
    (x0 : Vec F S1x512x3 .f32) (x1 : Vec F S1x4096x3 .f32) :
    sout0_A_1 c i arg2 harg2 arg3 harg3 arg4 harg4 arg5 harg5 arg6 harg6 hc0 x0 x1 = k0_pay1 (k0_pay6 x0 x1) (k0_pay4 (F := F)) := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_cons_unit_zero (S := S1x4096) hz2]
  simp only [View.readAt_eq_ld, harg2.read_unread, harg3.read_unread, View.ld_unit_zero (S := S1x512x3) hz3,
    View.ld_unit_zero (S := S1x4096x3) hz3, View.ld_unit_zero (S := S1x1) hz2, View.ld_unit_zero (S := S1x4096) hz2,
    readCov_cons_unit_zero (S := S1x1) _ hz2, readCov_cons_unit_zero (S := S1x4096) _ hz2]

/-- First tile of a batch: the output block is formed from the two values just left. -/
theorem out_first (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x4096 .f32) (harg6 : arg6.IsWhole) (hc0 : cond0_0 i)
    (x0 : Vec F S1x512x3 .f32) (x1 : Vec F S1x4096x3 .f32) :
    out0_A_2 c i arg2 harg2 arg3 harg3 arg4 harg4 arg5 harg5 arg6 harg6 hc0 x0 x1 = k0_pay2 (k0_pay7 x0 x1 (k0_pay3 (F := F))) (k0_pay1 (k0_pay6 x0 x1) (k0_pay4 (F := F))) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero (S := S1x1x1) hz3]
  simp only [View.readAt_eq_ld, harg2.read_unread, harg3.read_unread, View.ld_unit_zero (S := S1x512x3) hz3,
    View.ld_unit_zero (S := S1x4096x3) hz3, View.ld_unit_zero (S := S1x1) hz2, View.ld_unit_zero (S := S1x4096) hz2,
    readCov_cons_unit_zero (S := S1x1) _ hz2, readCov_cons_unit_zero (S := S1x4096) _ hz2]

/-- A later tile: the running total is the tile's row-minimum sum added to what the tile before left. -/
theorem total_next (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x4096 .f32) (harg6 : arg6.IsWhole) (hc0 : ¬cond0_0 i)
    (x0 : Vec F S1x512x3 .f32) (x1 : Vec F S1x4096x3 .f32) (xs0 : Vec F S1x1 .f32) (xs1 : Vec F S1x4096 .f32) :
    sout0_B_0 c i arg2 harg2 arg3 harg3 arg4 harg4 arg5 harg5 arg6 harg6 hc0 x0 x1 xs0 xs1 = k0_pay7 x0 x1 xs0 := by
  unfold sout0_B_0
  rw [View.read_writes_eq_canon _ _ _ (scover0_B_0 c i arg2 harg2 arg3 harg3 arg4 harg4 arg5 harg5 arg6 harg6 hc0 x0 x1 xs0 xs1)]
  unfold kernelRun0_B
  dsimp only
  sl_unfold_words
  rw [View.canon_unit_zero (S := S1x1) hz2]
  simp only [View.readAt_eq_ld, harg2.read_unread, harg3.read_unread, harg5.read_unread, harg6.read_unread, View.ld_unit_zero (S := S1x512x3) hz3,
    View.ld_unit_zero (S := S1x4096x3) hz3, View.ld_unit_zero (S := S1x1) hz2, View.ld_unit_zero (S := S1x4096) hz2,
    readCov_cons_unit_zero (S := S1x1) _ hz2, readCov_cons_unit_zero (S := S1x4096) _ hz2]

/-- A later tile: the running column minima are the tile's against what the tile before left. -/
theorem colmin_next (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x4096 .f32) (harg6 : arg6.IsWhole) (hc0 : ¬cond0_0 i)
    (x0 : Vec F S1x512x3 .f32) (x1 : Vec F S1x4096x3 .f32) (xs0 : Vec F S1x1 .f32) (xs1 : Vec F S1x4096 .f32) :
    sout0_B_1 c i arg2 harg2 arg3 harg3 arg4 harg4 arg5 harg5 arg6 harg6 hc0 x0 x1 xs0 xs1 = k0_pay1 (k0_pay6 x0 x1) xs1 := by
  unfold sout0_B_1
  rw [View.read_writes_eq_canon _ _ _ (scover0_B_1 c i arg2 harg2 arg3 harg3 arg4 harg4 arg5 harg5 arg6 harg6 hc0 x0 x1 xs0 xs1)]
  unfold kernelRun0_B
  dsimp only
  sl_unfold_words
  rw [View.canon_unit_zero (S := S1x4096) hz2]
  simp only [View.readAt_eq_ld, harg2.read_unread, harg3.read_unread, harg5.read_unread, harg6.read_unread, View.ld_unit_zero (S := S1x512x3) hz3,
    View.ld_unit_zero (S := S1x4096x3) hz3, View.ld_unit_zero (S := S1x1) hz2, View.ld_unit_zero (S := S1x4096) hz2,
    readCov_cons_unit_zero (S := S1x1) _ hz2, readCov_cons_unit_zero (S := S1x4096) _ hz2]

/-- A later tile: the output block is formed from the two values just left. -/
theorem out_next (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x4096 .f32) (harg6 : arg6.IsWhole) (hc0 : ¬cond0_0 i)
    (x0 : Vec F S1x512x3 .f32) (x1 : Vec F S1x4096x3 .f32) (xs0 : Vec F S1x1 .f32) (xs1 : Vec F S1x4096 .f32) :
    out0_B_2 c i arg2 harg2 arg3 harg3 arg4 harg4 arg5 harg5 arg6 harg6 hc0 x0 x1 xs0 xs1 = k0_pay2 (k0_pay7 x0 x1 xs0) (k0_pay1 (k0_pay6 x0 x1) xs1) := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero (S := S1x1x1) hz3]
  simp only [View.readAt_eq_ld, harg2.read_unread, harg3.read_unread, harg5.read_unread, harg6.read_unread, View.ld_unit_zero (S := S1x512x3) hz3,
    View.ld_unit_zero (S := S1x4096x3) hz3, View.ld_unit_zero (S := S1x1) hz2, View.ld_unit_zero (S := S1x4096) hz2,
    readCov_cons_unit_zero (S := S1x1) _ hz2, readCov_cons_unit_zero (S := S1x4096) _ hz2]

end Cert.KernelIdeal.Pieces

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Spec.lean ====
/-
  The chamfer distance between two clouds of 4096 points in three dimensions, for each of four batches, over the
  extended reals.

  For a template point r and a source point j of one batch the squared distance is expanded as
  |t|² + |s|² − 2·⟨t, s⟩. Every template point takes its nearest source point and every source point its nearest
  template point; the batch's value is the mean of the first plus the mean of the second.

  The rows are also taken 512 at a time: the sum over the rows below 512·(n+1) is the sum over the rows below 512·n
  plus the sum over the n-th group of 512, and likewise the minimum. Sums and minima on the extended reals commute
  and associate, so nothing here needs the entries to be finite.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Four batches of 4096 points with three coordinates each. -/
abbrev Pts : Shape := ⟨3, ![4, 4096, 3]⟩

/-- The squared distance between template point `r` and source point `j` of batch `b`, expanded:
    |t|² + |s|² − 2·⟨t, s⟩ (the factor two as the float word it is written with). -/
def sqd (T S : Pts.Idx → EReal) (b : Fin 4) (r j : Fin 4096) : EReal :=
  ((∑ k : Fin 3, T (ix3 b r k) * T (ix3 b r k)) + ∑ k : Fin 3, S (ix3 b j k) * S (ix3 b j k))
    - Ideal.ofBits .f32 0x40000000#32 * ∑ k : Fin 3, T (ix3 b r k) * S (ix3 b j k)

/-- One batch's value: the mean over the template points of the distance to the nearest source point, plus the
    mean over the source points of the distance to the nearest template point (4096 as the float word). -/
def perBatch (T S : Pts.Idx → EReal) (b : Fin 4) : EReal :=
  Ideal.div (∑ r : Fin 4096, Finset.univ.inf fun j : Fin 4096 => sqd T S b r j) (Ideal.ofBits .f32 0x45800000#32)
    + Ideal.div (∑ j : Fin 4096, Finset.univ.inf fun r : Fin 4096 => sqd T S b r j) (Ideal.ofBits .f32 0x45800000#32)

/-- The four batches' values as a vector. -/
def perBatchVec (T S : Pts.Idx → EReal) : (⟨1, ![4]⟩ : Shape).Idx → EReal := fun i => perBatch T S (i 0)

/-- The rows below `n`. -/
def below (n : ℕ) : Finset (Fin 4096) := Finset.univ.filter fun r => r.val < n

/-- The sum of `f` over the rows below `n`. -/
def partSum (f : Fin 4096 → EReal) (n : ℕ) : EReal := ∑ r ∈ below n, f r

/-- The minimum of `f` over the rows below `n` (the top element when there is none). -/
def partMin (f : Fin 4096 → EReal) (n : ℕ) : EReal := (below n).inf f

end Cert.Chamfer

end
-- ==== Proof.Tiles.lean ====
/-
  Sums and minima over the 4096 rows taken 512 rows at a time, on the extended reals.

  The sum over the rows below 512·(n+1) is the sum over the rows below 512·n plus the sum over the n-th group of 512
  rows; the minimum likewise, with the binary minimum in place of the sum. Below row 0 the sum is 0 and the minimum
  is the top element; below row 4096 they are the sum and the minimum over every row. A fold of the binary minimum
  from +∞ is the infimum. Addition and minimum on the extended reals commute and associate, so no entry has to be
  finite.
-/
import proofs.«129061_j11063835755244_1_alg».proof.Proof.Spec

noncomputable section

namespace Cert.Chamfer

open Idealize.ShloMosaic Idealize.ShloMosaic.ValueIdx

/-- The float word of +∞ is the top element. -/
theorem ofBits_inf : Ideal.ofBits .f32 0x7F800000#32 = (⊤ : EReal) := by
  simp [Ideal.ofBits, Ideal.ieee]

/-- A fold of `min` from +∞ over all of `Fin n` is the infimum over it. -/
theorem fold_min_eq_inf {n : ℕ} (f : Fin n → EReal) :
    (Finset.univ : Finset (Fin n)).fold min (Ideal.ofBits .f32 0x7F800000#32) f = Finset.univ.inf f := by
  rw [ofBits_inf]
  refine eq_of_forall_le_iff fun c => ?_
  rw [Finset.le_fold_min, Finset.le_inf_iff]
  simp

theorem partSum_zero (f : Fin 4096 → EReal) : partSum f 0 = 0 := by
  simp [partSum, below]

theorem partMin_zero (f : Fin 4096 → EReal) : partMin f 0 = ⊤ := by
  simp [partMin, below]

/-- The `n`-th group of 512 rows, as a map from its 512 positions into the rows; it is injective. -/
private theorem tile_injective (n : ℕ) (hn : n < 8) :
    Function.Injective fun i : Fin 512 => (⟨512 * n + i.val, by have := i.isLt; omega⟩ : Fin 4096) := by
  intro i j h
  have h' : 512 * n + i.val = 512 * n + j.val := congrArg Fin.val h
  exact Fin.ext (by omega)

/-- The rows below 512·(n+1) are the rows below 512·n together with the `n`-th group of 512 rows. -/
private theorem below_tile (n : ℕ) (hn : n < 8) :
    below (512 * (n + 1)) = below (512 * n) ∪
      Finset.univ.image fun i : Fin 512 => (⟨512 * n + i.val, by have := i.isLt; omega⟩ : Fin 4096) := by
  ext r
  simp only [below, Finset.mem_union, Finset.mem_filter, Finset.mem_univ, true_and, Finset.mem_image]
  constructor
  · intro h
    by_cases h' : r.val < 512 * n
    · exact Or.inl h'
    · exact Or.inr ⟨⟨r.val - 512 * n, by omega⟩, Fin.ext (by simp only []; omega)⟩
  · rintro (h | ⟨i, rfl⟩)
    · omega
    · have := i.isLt
      simp only []
      omega

/-- The rows below 512·n and the `n`-th group of 512 rows have no row in common. -/
private theorem below_disjoint_tile (n : ℕ) (hn : n < 8) :
    Disjoint (below (512 * n))
      (Finset.univ.image fun i : Fin 512 => (⟨512 * n + i.val, by have := i.isLt; omega⟩ : Fin 4096)) := by
  rw [Finset.disjoint_left]
  intro r hr hi
  obtain ⟨i, -, rfl⟩ := Finset.mem_image.mp hi
  simp only [below, Finset.mem_filter, Finset.mem_univ, true_and] at hr
  omega

/-- Adding the `n`-th group of 512 rows to the sum over the rows below it. -/
theorem partSum_tile (f : Fin 4096 → EReal) (n : ℕ) (hn : n < 8) :
    partSum f (512 * n) + ∑ i : Fin 512, f ⟨512 * n + i.val, by have := i.isLt; omega⟩ = partSum f (512 * (n + 1)) := by
  unfold partSum
  rw [below_tile n hn, Finset.sum_union (below_disjoint_tile n hn),
    Finset.sum_image fun a _ b _ h => tile_injective n hn h]

/-- Taking the `n`-th group of 512 rows into the minimum over the rows below it. -/
theorem partMin_tile (f : Fin 4096 → EReal) (n : ℕ) (hn : n < 8) :
    min (partMin f (512 * n)) (Finset.univ.inf fun i : Fin 512 => f ⟨512 * n + i.val, by have := i.isLt; omega⟩)
      = partMin f (512 * (n + 1)) := by
  unfold partMin
  refine eq_of_forall_le_iff fun c => ?_
  rw [below_tile n hn, Finset.inf_union, Finset.inf_image, le_min_iff, le_inf_iff]
  rfl

/-- Every row is below row 4096. -/
private theorem below_all : below 4096 = Finset.univ := by
  ext r
  simp [below, r.isLt]

theorem partSum_all (f : Fin 4096 → EReal) : partSum f 4096 = ∑ r, f r := by
  rw [partSum, below_all]

theorem partMin_all (f : Fin 4096 → EReal) : partMin f 4096 = Finset.univ.inf f := by
  rw [partMin, below_all]

end Cert.Chamfer

end
-- ==== Proof.Payload.lean ====
/-
  What one run of the kernel body computes, read entry by entry at the ideal values.

  From a block of 512 template points and the batch's 4096 source points the body forms the 512 × 4096 table of
  squared distances |t|² + |s|² − 2·⟨t, s⟩ (the inner products by a matrix product into a zero accumulator, the
  squared norms by sums along the three coordinates; the narrowing to sixteen bits before the product is the
  identity on extended reals). Its row minima are summed into the running total, its column minima are taken into
  the running column minima, and the output is the running total over 4096 plus the sum of the running column
  minima over 4096.
-/
import proofs.«129061_j11063835755244_1_alg».proof.Proof.Gen.KernelIdeal.Skeleton
import proofs.«129061_j11063835755244_1_alg».proof.Proof.LibKeepdims
import proofs.«129061_j11063835755244_1_alg».proof.Proof.Spec
import proofs.«129061_j11063835755244_1_alg».proof.Proof.Tiles
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen

/-! ## The layout and reduction forms the body uses, read at an index (any extents) -/

section Forms
variable {α : Type}

/-- A vector [a] cast to a column [a, 1]: at (p, u), the vector at p. -/
private theorem column_cast_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- At the ideal values the sum down the rows of an [a, b] array from the zero pattern, read at column q, is the
    sum of the column. -/
private theorem row_sum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec (FTy.bits .f32)) = FKind.add.neutral .f32 hφ) (q : Fin b) :
    multiReduction (F := Ideal) .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src
      (funext fun ax => Fin.ext (by match ax with | ⟨0, _⟩ => rfl | ⟨1, _⟩ => rfl)))

/-- At the ideal values the minimum along the lanes of an [a, b] array from the pattern of +∞, read at row p, is
    the infimum of the row. -/
private theorem lane_min_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec (FTy.bits .f32)) = FKind.minimumf.neutral .f32 hφ) (p : Fin a) :
    multiReduction (F := Ideal) .minimumf [1] ⟨1, ![a]⟩ src 0x7F800000#32 h hφ hacc (ix1 p)
      = Finset.univ.inf fun k : Fin b => src (ix2 p k) := by
  refine (multiReduction_minimumf_eq_fold src _ h hφ hacc (ix1 p)).trans ?_
  refine (h.fold_filter_drop_single _ _ src (ix1 p)).trans ?_
  refine (Cert.Chamfer.fold_min_eq_inf (n := b) (src ∘ h.lift (ix1 p))).trans ?_
  refine congrArg (Finset.univ.inf) (funext fun k => congrArg src
      (funext fun ax => Fin.ext (by match ax with | ⟨0, _⟩ => rfl | ⟨1, _⟩ => rfl)))

/-- At the ideal values the minimum down the rows of an [a, b] array from the pattern of +∞, read at column q, is
    the infimum of the column. -/
private theorem row_min_apply {a b : ℕ} (src : FVec Ideal ⟨2, ![a, b]⟩ .f32)
    (h : (⟨2, ![a, b]⟩ : Shape).Reduces [0] ⟨1, ![b]⟩) (hφ : FKind.Formats .f32)
    (hacc : (0x7F800000#32 : BitVec (FTy.bits .f32)) = FKind.minimumf.neutral .f32 hφ) (q : Fin b) :
    multiReduction (F := Ideal) .minimumf [0] ⟨1, ![b]⟩ src 0x7F800000#32 h hφ hacc (ix1 q)
      = Finset.univ.inf fun k : Fin a => src (ix2 k q) := by
  refine (multiReduction_minimumf_eq_fold src _ h hφ hacc (ix1 q)).trans ?_
  refine (h.fold_filter_drop_single _ _ src (ix1 q)).trans ?_
  refine (Cert.Chamfer.fold_min_eq_inf (n := a) (src ∘ h.lift (ix1 q))).trans ?_
  refine congrArg (Finset.univ.inf) (funext fun k => congrArg src
      (funext fun ax => Fin.ext (by match ax with | ⟨0, _⟩ => rfl | ⟨1, _⟩ => rfl)))

end Forms

/-! ## The matrix product of the body read at an index -/

private theorem lhs_axis_0 (i : S512x4096.Idx) (q : dot_S512x3_S3x4096_S512x4096_1_0_0_1_n_n.contr.Idx) :
    (dot_S512x3_S3x4096_S512x4096_1_0_0_1_n_n.lhsIdx i q 0).val = (i 0).val := by
  unfold DotDims.lhsIdx
  rw [dif_neg (show ¬(0 : Fin S512x3.rank) ∈ dot_S512x3_S3x4096_S512x4096_1_0_0_1_n_n.lhsBatch by decide), dif_pos (show (0 : Fin S512x3.rank) ∈ dot_S512x3_S3x4096_S512x4096_1_0_0_1_n_n.lhsNonContracting by decide)]
  rfl
private theorem lhs_axis_1 (i : S512x4096.Idx) (q : dot_S512x3_S3x4096_S512x4096_1_0_0_1_n_n.contr.Idx) :
    (dot_S512x3_S3x4096_S512x4096_1_0_0_1_n_n.lhsIdx i q 1).val = (q ⟨0, by decide⟩).val :=
  dot_S512x3_S3x4096_S512x4096_1_0_0_1_n_n.lhsIdx_val_of_single rfl i q
private theorem rhs_axis_0 (i : S512x4096.Idx) (q : dot_S512x3_S3x4096_S512x4096_1_0_0_1_n_n.contr.Idx) :
    (dot_S512x3_S3x4096_S512x4096_1_0_0_1_n_n.rhsIdx i q 0).val = (q ⟨0, by decide⟩).val :=
  dot_S512x3_S3x4096_S512x4096_1_0_0_1_n_n.rhsIdx_val_of_single rfl i q
private theorem rhs_axis_1 (i : S512x4096.Idx) (q : dot_S512x3_S3x4096_S512x4096_1_0_0_1_n_n.contr.Idx) :
    (dot_S512x3_S3x4096_S512x4096_1_0_0_1_n_n.rhsIdx i q 1).val = (i 1).val := by
  unfold DotDims.rhsIdx
  rw [dif_neg (show ¬(1 : Fin S3x4096.rank) ∈ dot_S512x3_S3x4096_S512x4096_1_0_0_1_n_n.rhsBatch by decide), dif_pos (show (1 : Fin S3x4096.rank) ∈ dot_S512x3_S3x4096_S512x4096_1_0_0_1_n_n.rhsNonContracting by decide)]
  rfl

/-- The body's matrix product into the zero accumulator: at (i, j), the sum over the three coordinates of the
    products of row i of the left operand and column j of the right one. -/
private theorem matmul_zero_apply (lhs : FVec Ideal S512x3 .bf16) (rhs : FVec Ideal S3x4096 .bf16) (i : Fin 512) (j : Fin 4096) :
    matmul dot_S512x3_S3x4096_S512x4096_1_0_0_1_n_n none lhs rhs (constant (F := Ideal) S512x4096 .f32 0x00000000#32) (ix2 i j)
      = ∑ k : Fin 3, lhs (ix2 i k) * rhs (ix2 k j) := by
  refine (Ideal.matmul_constant_zero_apply dot_S512x3_S3x4096_S512x4096_1_0_0_1_n_n none lhs rhs (ix2 i j)).trans ?_
  rw [← Equiv.sum_comp (contrEquiv1 dot_S512x3_S3x4096_S512x4096_1_0_0_1_n_n 3 rfl rfl).symm]
  refine Finset.sum_congr rfl fun k _ => ?_
  have hk := contrEquiv1_symm_val dot_S512x3_S3x4096_S512x4096_1_0_0_1_n_n 3 rfl rfl k
  have el : dot_S512x3_S3x4096_S512x4096_1_0_0_1_n_n.lhsIdx (ix2 i j) ((contrEquiv1 dot_S512x3_S3x4096_S512x4096_1_0_0_1_n_n 3 rfl rfl).symm k) = ix2 i k := funext fun a => Fin.ext (by
    match a with
    | ⟨0, _⟩ => exact lhs_axis_0 _ _
    | ⟨1, _⟩ => exact (lhs_axis_1 _ _).trans hk)
  have er : dot_S512x3_S3x4096_S512x4096_1_0_0_1_n_n.rhsIdx (ix2 i j) ((contrEquiv1 dot_S512x3_S3x4096_S512x4096_1_0_0_1_n_n 3 rfl rfl).symm k) = ix2 k j := funext fun a => Fin.ext (by
    match a with
    | ⟨0, _⟩ => exact (rhs_axis_0 _ _).trans hk
    | ⟨1, _⟩ => exact rhs_axis_1 _ _)
  rw [el, er]

/-- The table of squared distances between the block's 512 template points and the 4096 source points. -/
theorem pay5_apply (x0 : Vec Ideal S1x512x3 .f32) (x1 : Vec Ideal S1x4096x3 .f32) (i : Fin 512) (j : Fin 4096) :
    k0_pay5 (F := Ideal) x0 x1 (ix2 i j)
      = ((∑ k : Fin 3, x0 (ix3 (0 : Fin 1) i k) * x0 (ix3 (0 : Fin 1) i k))
          + ∑ k : Fin 3, x1 (ix3 (0 : Fin 1) j k) * x1 (ix3 (0 : Fin 1) j k))
        - Ideal.ofBits .f32 0x40000000#32 * ∑ k : Fin 3, x0 (ix3 (0 : Fin 1) i k) * x1 (ix3 (0 : Fin 1) j k) := by
  unfold k0_pay5
  refine (subf_apply _ _ _).trans ?_
  refine congrArg₂ (· - ·) ?_ ?_
  · refine (addf_apply _ _ _).trans ?_
    refine congrArg₂ (· + ·) ?_ ?_
    · -- the template points' squared norms: a lane sum, as a column, across the columns
      refine (Cert.LibKeepdims.column_broadcast_apply _ shapeCasts_S512_S512x1 broadcasts_S512x1_S512x4096 i j).trans ?_
      refine (Cert.LibKeepdims.lane_sum_apply _ reduces_S512x3_S512 (.inl rfl) rfl i).trans ?_
      refine Finset.sum_congr rfl fun k _ => ?_
      have e := shapeCast_1ab_ab_apply x0 shapeCasts_S1x512x3_S512x3 i k
      exact congrArg₂ (· * ·) e e
    · -- the source points' squared norms: a lane sum, as a column, transposed to a row, down the rows
      refine (Cert.LibKeepdims.row_of_column_broadcast_apply _ shapeCasts_S4096_S4096x1 transposes_S4096x1_p1_0_S1x4096
        broadcasts_S1x4096_S512x4096 i j).trans ?_
      refine (Cert.LibKeepdims.lane_sum_apply _ reduces_S4096x3_S4096 (.inl rfl) rfl j).trans ?_
      refine Finset.sum_congr rfl fun k _ => ?_
      have e := shapeCast_1ab_ab_apply x1 shapeCasts_S1x4096x3_S4096x3 j k
      exact congrArg₂ (· * ·) e e
  · -- twice the inner products
    refine (mulf_apply _ _ _).trans ?_
    refine congrArg (Ideal.ofBits .f32 0x40000000#32 * ·) ?_
    refine (matmul_zero_apply _ _ i j).trans ?_
    refine Finset.sum_congr rfl fun k _ => ?_
    refine congrArg₂ (· * ·) ?_ ?_
    · exact shapeCast_1ab_ab_apply x0 shapeCasts_S1x512x3_S512x3 i k
    · refine (transpose_ix2_apply _ transposes_S4096x3_p1_0_S3x4096 k j).trans ?_
      exact shapeCast_1ab_ab_apply x1 shapeCasts_S1x4096x3_S4096x3 j k

/-- The column minima of the table: for source point `j` the least distance to a template point of the block. -/
theorem pay6_apply (x0 : Vec Ideal S1x512x3 .f32) (x1 : Vec Ideal S1x4096x3 .f32) (j : Fin 4096) :
    k0_pay6 (F := Ideal) x0 x1 (ix2 (0 : Fin 1) j)
      = Finset.univ.inf fun i : Fin 512 => k0_pay5 (F := Ideal) x0 x1 (ix2 i j) := by
  unfold k0_pay6
  refine (shapeCast_a_1a_apply _ shapeCasts_S4096_S1x4096 (0 : Fin 1) j).trans ?_
  exact row_min_apply (k0_pay5 (F := Ideal) x0 x1) reduces_S512x4096_S4096 (.inl rfl) rfl j

/-- The running total after the block: what it was plus the sum of the table's row minima. -/
theorem pay7_apply (x0 : Vec Ideal S1x512x3 .f32) (x1 : Vec Ideal S1x4096x3 .f32) (prev : Vec Ideal S1x1 .f32) :
    k0_pay7 (F := Ideal) x0 x1 prev (ix2 (0 : Fin 1) (0 : Fin 1))
      = prev (ix2 (0 : Fin 1) (0 : Fin 1))
        + ∑ i : Fin 512, Finset.univ.inf fun j : Fin 4096 => k0_pay5 (F := Ideal) x0 x1 (ix2 i j) := by
  unfold k0_pay7
  refine (congrFun (shapeCast_self _ shapeCasts_S1x1_S1x1) _).trans ?_
  refine (addf_apply _ _ _).trans ?_
  refine congrArg (prev (ix2 (0 : Fin 1) (0 : Fin 1)) + ·) ?_
  refine (shapeCast_a_1a_apply _ shapeCasts_S1_S1x1 (0 : Fin 1) (0 : Fin 1)).trans ?_
  refine (row_sum_apply _ reduces_S512x1_S1 (.inl rfl) rfl (0 : Fin 1)).trans ?_
  refine Finset.sum_congr rfl fun i _ => ?_
  refine (column_cast_apply _ shapeCasts_S512_S512x1 i (0 : Fin 1)).trans ?_
  exact lane_min_apply (k0_pay5 (F := Ideal) x0 x1) reduces_S512x4096_S512 (.inl rfl) rfl i

/-- The running column minima after the block: the smaller of what they were and the block's. -/
theorem pay1_apply (v27 : FVec Ideal S1x4096 .f32) (v35 : Vec Ideal S1x4096 .f32) (j : Fin 4096) :
    k0_pay1 (F := Ideal) v27 v35 (ix2 (0 : Fin 1) j) = min (v35 (ix2 (0 : Fin 1) j)) (v27 (ix2 (0 : Fin 1) j)) := by
  unfold k0_pay1
  exact (congrFun (shapeCast_self _ shapeCasts_S1x4096_S1x4096) _).trans (minimumf_apply _ _ _)

/-- The output: the running total over 4096 plus the sum of the running column minima over 4096. -/
theorem pay2_apply (v40 : Vec Ideal S1x1 .f32) (v43 : Vec Ideal S1x4096 .f32) :
    k0_pay2 (F := Ideal) v40 v43 (ix3 (0 : Fin 1) (0 : Fin 1) (0 : Fin 1))
      = Ideal.div (v40 (ix2 (0 : Fin 1) (0 : Fin 1))) (Ideal.ofBits .f32 0x45800000#32)
        + Ideal.div (∑ j : Fin 4096, v43 (ix2 (0 : Fin 1) j)) (Ideal.ofBits .f32 0x45800000#32) := by
  unfold k0_pay2
  refine (shapeCast_ab_1ab_apply _ shapeCasts_S1x1_S1x1x1 (0 : Fin 1) (0 : Fin 1) (0 : Fin 1)).trans ?_
  refine (addf_apply _ _ _).trans ?_
  refine congrArg₂ (· + ·) ?_ ?_
  · exact divf_apply _ _ _
  · refine (divf_apply _ _ _).trans ?_
    refine congrArg (Ideal.div · (Ideal.ofBits .f32 0x45800000#32)) ?_
    refine (shapeCast_a_1a_apply _ shapeCasts_S1_S1x1 (0 : Fin 1) (0 : Fin 1)).trans ?_
    exact Cert.LibKeepdims.lane_sum_apply v43 reduces_S1x4096_S1 (.inl rfl) rfl (0 : Fin 1)

/-- The running total is reset to zero. -/
theorem pay3_apply : (k0_pay3 (F := Ideal)) (ix2 (0 : Fin 1) (0 : Fin 1)) = 0 := by
  unfold k0_pay3
  refine (congrFun (shapeCast_self _ shapeCasts_S1x1_S1x1) _).trans ?_
  exact Ideal.ofBits_zero_f32

/-- The running column minima are reset to the top element. -/
theorem pay4_apply (j : Fin 4096) : (k0_pay4 (F := Ideal)) (ix2 (0 : Fin 1) j) = ⊤ := by
  unfold k0_pay4
  refine (congrFun (shapeCast_self _ shapeCasts_S1x4096_S1x4096) _).trans ?_
  exact Cert.Chamfer.ofBits_inf

end Cert.KernelIdeal.Payload

end
-- ==== Proof.Blocks.lean ====
/-
  The blocks the kernel body is handed at a grid point, read entry by entry off the two arrays the region finds.

  Grid point t stands for batch t / 8 and tile t % 8. Its template block is the 512 points of that batch from row
  512·(t % 8) on; its source block is all 4096 points of that batch; its output block is the batch's one entry.
-/
import proofs.«129061_j11063835755244_1_alg».proof.Proof.Gen.KernelIdeal.Frame.Runs
import Idealize.ShloMosaic.Lib.ValueIdx

set_option maxRecDepth 16384

noncomputable section

namespace Cert.KernelIdeal.Blocks

open Idealize.ShloMosaic Idealize.ShloMosaic.TcCoe Idealize.ShloMosaic.ValueIdx Cert.KernelIdeal Cert.KernelIdeal.Gen
open Idealize.SL Idealize.SL.Sem

variable {F : FTy → Type} [FloatOps F]
variable (m : (ℓ : Loc nD τ sig) → Buf (Elt F) ℓ)

/-- The template window's block index at point `t`: (batch, tile, 0). -/
theorem index_tpl : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The source window's block index at point `t`: (batch, 0, 0). -/
theorem index_src : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The output window's block index at point `t`: (batch, 0, 0). -/
theorem index_out : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- The arrays the region finds, at their literal types. -/
abbrev tplArr (c : Dev nD) : Vec F S4x4096x3 .f32 := V m c main_v1
abbrev srcArr (c : Dev nD) : Vec F S4x4096x3 .f32 := V m c main_v3

/-- The blocks at a point, at their literal types. -/
abbrev tplBlk (c : Dev nD) (t : Fin cfg0.N) : Vec F S1x512x3 .f32 := iblk m c 0 t
abbrev srcBlk (c : Dev nD) (t : Fin cfg0.N) : Vec F S1x4096x3 .f32 := iblk m c 1 t

/-- Row `i` of the template block at point `t` is row 512·(t % 8) + i of batch t / 8. -/
theorem tplBlk_apply (c : Dev nD) (t : Fin cfg0.N) (i : Fin 512) (k : Fin 3) (b : Fin 4) (r : Fin 4096)
    (hb : b.val = t.val / 8) (hr : r.val = 512 * (t.val % 8) + i.val) :
    tplBlk m c t (ix3 (0 : Fin 1) i k) = tplArr m c (ix3 b r k) := by
  obtain ⟨h0, h1, h2⟩ := index_tpl t
  unfold tplBlk tplArr iblk
  rw [View.read_apply]
  show V m c main_v1 _ = V m c main_v1 _
  congr 1
  funext a
  apply Fin.ext
  match a with
  | ⟨0, _⟩ => show win0_0.index t 0 * 1 + 1 * 0 = b.val; rw [h0, hb]; omega
  | ⟨1, _⟩ => show win0_0.index t 1 * 512 + 1 * i.val = r.val; rw [h1, hr]; omega
  | ⟨2, _⟩ => show win0_0.index t 2 * 3 + 1 * k.val = k.val; rw [h2]; omega

/-- Row `j` of the source block at point `t` is row `j` of batch t / 8. -/
theorem srcBlk_apply (c : Dev nD) (t : Fin cfg0.N) (j : Fin 4096) (k : Fin 3) (b : Fin 4) (hb : b.val = t.val / 8) :
    srcBlk m c t (ix3 (0 : Fin 1) j k) = srcArr m c (ix3 b j k) := by
  obtain ⟨h0, h1, h2⟩ := index_src t
  unfold srcBlk srcArr iblk
  rw [View.read_apply]
  show V m c main_v3 _ = V m c main_v3 _
  congr 1
  funext a
  apply Fin.ext
  match a with
  | ⟨0, _⟩ => show win0_1.index t 0 * 1 + 1 * 0 = b.val; rw [h0, hb]; omega
  | ⟨1, _⟩ => show win0_1.index t 1 * 4096 + 1 * j.val = j.val; rw [h1]; omega
  | ⟨2, _⟩ => show win0_1.index t 2 * 3 + 1 * k.val = k.val; rw [h2]; omega

end Cert.KernelIdeal.Blocks

end
-- ==== Proof.Invariant.lean ====
/-
  What the kernel's carried buffers and its output block hold after each grid point.

  Grid point t is tile t % 8 of batch t / 8. After it the running total holds the sum, over the batch's template
  rows below 512·(t % 8 + 1), of each row's distance to its nearest source point; the running column minima hold,
  for every source point, its least distance to a template row below that bound; and the output block holds the
  first over 4096 plus the sum of the second over 4096. At a batch's first tile the body resets both buffers (zero,
  and the top element) before it uses them, which are the values of the sum and of the minimum over no rows; at a
  later tile it starts from what the tile before left. By induction on the point.
-/
import proofs.«129061_j11063835755244_1_alg».proof.Proof.Gen.KernelIdeal.Frame
import proofs.«129061_j11063835755244_1_alg».proof.Proof.Pieces
import proofs.«129061_j11063835755244_1_alg».proof.Proof.Payload
import proofs.«129061_j11063835755244_1_alg».proof.Proof.Blocks
import proofs.«129061_j11063835755244_1_alg».proof.Proof.Tiles

set_option maxRecDepth 16384

noncomputable section

namespace Cert.KernelIdeal.Invariant

open Idealize.ShloMosaic Idealize.ShloMosaic.TcCoe Idealize.ShloMosaic.ValueIdx Cert.KernelIdeal Cert.KernelIdeal.Gen
open Idealize.SL Idealize.SL.Sem
open Cert.Chamfer Cert.KernelIdeal.Blocks Cert.KernelIdeal.Payload Cert.KernelIdeal.Pieces

variable (m : (ℓ : Loc nD τ sig) → Buf (Elt Ideal) ℓ)

/-- Template row `r` of batch `b`: its distance to the nearest source point. -/
def rowNear (c : Dev nD) (b : Fin 4) : Fin 4096 → EReal :=
  fun r => Finset.univ.inf fun j : Fin 4096 => sqd (tplArr m c) (srcArr m c) b r j

/-- Source point `j` of batch `b`: its distance to template row `r`, as a function of the row. -/
def colDist (c : Dev nD) (b : Fin 4) (j : Fin 4096) : Fin 4096 → EReal :=
  fun r => sqd (tplArr m c) (srcArr m c) b r j

/-- The tile's table of distances is the specification's, at the tile's rows of its batch. -/
theorem table_apply (c : Dev nD) (t : Fin cfg0.N) (i : Fin 512) (j : Fin 4096) (b : Fin 4) (r : Fin 4096)
    (hb : b.val = t.val / 8) (hr : r.val = 512 * (t.val % 8) + i.val) :
    k0_pay5 (F := Ideal) (tplBlk m c t) (srcBlk m c t) (ix2 i j) = sqd (tplArr m c) (srcArr m c) b r j := by
  rw [pay5_apply]
  unfold sqd
  simp only [fun k => tplBlk_apply m c t i k b r hb hr, fun k => srcBlk_apply m c t j k b hb]

/-- The running total takes in the tile's rows. -/
theorem total_step (c : Dev nD) (t : Fin cfg0.N) (b : Fin 4) (hb : b.val = t.val / 8) (prev : Vec Ideal S1x1 .f32)
    (n : ℕ) (hn : n = t.val % 8) (hprev : prev (ix2 (0 : Fin 1) (0 : Fin 1)) = partSum (rowNear m c b) (512 * n)) :
    k0_pay7 (F := Ideal) (tplBlk m c t) (srcBlk m c t) prev (ix2 (0 : Fin 1) (0 : Fin 1))
      = partSum (rowNear m c b) (512 * (n + 1)) := by
  have hn8 : n < 8 := by omega
  rw [pay7_apply, hprev, ← partSum_tile _ n hn8]
  refine congrArg (_ + ·) (Finset.sum_congr rfl fun i _ => ?_)
  unfold rowNear
  refine congrArg (Finset.inf Finset.univ) (funext fun j => ?_)
  exact table_apply m c t i j b _ hb (by show 512 * n + i.val = _; rw [hn])

/-- The running column minima take in the tile's rows. -/
theorem colmin_step (c : Dev nD) (t : Fin cfg0.N) (b : Fin 4) (hb : b.val = t.val / 8) (prev : Vec Ideal S1x4096 .f32)
    (n : ℕ) (hn : n = t.val % 8) (j : Fin 4096)
    (hprev : prev (ix2 (0 : Fin 1) j) = partMin (colDist m c b j) (512 * n)) :
    k0_pay1 (F := Ideal) (k0_pay6 (F := Ideal) (tplBlk m c t) (srcBlk m c t)) prev (ix2 (0 : Fin 1) j)
      = partMin (colDist m c b j) (512 * (n + 1)) := by
  have hn8 : n < 8 := by omega
  rw [pay1_apply, pay6_apply, hprev, ← partMin_tile _ n hn8]
  refine congrArg (min _) (congrArg (Finset.inf Finset.univ) (funext fun i => ?_))
  unfold colDist
  exact table_apply m c t i j b _ hb (by show 512 * n + i.val = _; rw [hn])

/-- The output block from the two buffers' entries. -/
theorem out_step (v40 : Vec Ideal S1x1 .f32) (v43 : Vec Ideal S1x4096 .f32) (s : EReal) (g : Fin 4096 → EReal)
    (h40 : v40 (ix2 (0 : Fin 1) (0 : Fin 1)) = s) (h43 : ∀ j : Fin 4096, v43 (ix2 (0 : Fin 1) j) = g j) :
    k0_pay2 (F := Ideal) v40 v43 (ix3 (0 : Fin 1) (0 : Fin 1) (0 : Fin 1))
      = Ideal.div s (Ideal.ofBits .f32 0x45800000#32) + Ideal.div (∑ j : Fin 4096, g j) (Ideal.ofBits .f32 0x45800000#32) := by
  rw [pay2_apply, h40, Finset.sum_congr rfl fun j _ => h43 j]

/-- What holds after the point numbered `k`, of batch `b`, having taken in `n + 1` tiles. -/
def Inv (c : Dev nD) (k : ℕ) (h : k < cfg0.N) (b : Fin 4) (n : ℕ) : Prop :=
  (outsAt0 m c k h).2.1 (ix2 (0 : Fin 1) (0 : Fin 1)) = partSum (rowNear m c b) (512 * (n + 1))
  ∧ (∀ j : Fin 4096, (outsAt0 m c k h).2.2 (ix2 (0 : Fin 1) j) = partMin (colDist m c b j) (512 * (n + 1)))
  ∧ (outsAt0 m c k h).1 (ix3 (0 : Fin 1) (0 : Fin 1) (0 : Fin 1))
      = Ideal.div (partSum (rowNear m c b) (512 * (n + 1))) (Ideal.ofBits .f32 0x45800000#32)
        + Ideal.div (∑ j : Fin 4096, partMin (colDist m c b j) (512 * (n + 1))) (Ideal.ofBits .f32 0x45800000#32)

/-- A batch's first tile. -/
theorem inv_first (c : Dev nD) (t : Fin cfg0.N) (h0 : t.val % 8 = 0) (b : Fin 4) (hb : b.val = t.val / 8) :
    Inv m c t.val t.isLt b 0 := by
  have e0 := total_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (tplBlk m c t) (srcBlk m c t)
  have e1 := colmin_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (tplBlk m c t) (srcBlk m c t)
  have e2 := out_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (tplBlk m c t) (srcBlk m c t)
  have s0 := total_step m c t b hb (k0_pay3 (F := Ideal)) 0 (by omega) (by rw [pay3_apply, Nat.mul_zero, partSum_zero])
  have s1 : ∀ j : Fin 4096, _ := fun j => colmin_step m c t b hb (k0_pay4 (F := Ideal)) 0 (by omega) j
    (by rw [pay4_apply, Nat.mul_zero, partMin_zero])
  unfold Inv
  rw [outsAt0_A m c t h0]
  dsimp only
  refine ⟨(congrFun e0 _).trans s0, fun j => (congrFun e1 _).trans (s1 j), (congrFun e2 _).trans ?_⟩
  exact out_step _ _ _ _ s0 s1

/-- A later tile, from what the tile before left. -/
theorem inv_next (c : Dev nD) (t : Fin cfg0.N) (h0 : ¬t.val % 8 = 0) (b : Fin 4) (hb : b.val = t.val / 8) (n : ℕ)
    (hn : n + 1 = t.val % 8)
    (ih : Inv m c (t.val - 1) (Nat.lt_of_le_of_lt (Nat.sub_le _ _) t.isLt) b n) :
    Inv m c t.val t.isLt b (n + 1) := by
  obtain ⟨ih0, ih1, -⟩ := ih
  have e0 := total_next (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (tplBlk m c t) (srcBlk m c t) (outsAt0 m c (t.val - 1) (Nat.lt_of_le_of_lt (Nat.sub_le _ _) t.isLt)).2.1 (outsAt0 m c (t.val - 1) (Nat.lt_of_le_of_lt (Nat.sub_le _ _) t.isLt)).2.2
  have e1 := colmin_next (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (tplBlk m c t) (srcBlk m c t) (outsAt0 m c (t.val - 1) (Nat.lt_of_le_of_lt (Nat.sub_le _ _) t.isLt)).2.1 (outsAt0 m c (t.val - 1) (Nat.lt_of_le_of_lt (Nat.sub_le _ _) t.isLt)).2.2
  have e2 := out_next (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (tplBlk m c t) (srcBlk m c t) (outsAt0 m c (t.val - 1) (Nat.lt_of_le_of_lt (Nat.sub_le _ _) t.isLt)).2.1 (outsAt0 m c (t.val - 1) (Nat.lt_of_le_of_lt (Nat.sub_le _ _) t.isLt)).2.2
  have s0 := total_step m c t b hb _ (n + 1) hn ih0
  have s1 : ∀ j : Fin 4096, _ := fun j => colmin_step m c t b hb _ (n + 1) hn j (ih1 j)
  unfold Inv
  rw [outsAt0_B m c t h0]
  dsimp only
  refine ⟨(congrFun e0 _).trans s0, fun j => (congrFun e1 _).trans (s1 j), (congrFun e2 _).trans ?_⟩
  exact out_step _ _ _ _ s0 s1

/-- After every point: by induction on its number. -/
theorem inv_all (c : Dev nD) : ∀ (k : ℕ) (h : k < cfg0.N) (b : Fin 4), b.val = k / 8 → Inv m c k h b (k % 8)
  | 0, h, b, hb => inv_first m c ⟨0, h⟩ rfl b hb
  | k + 1, h, b, hb => by
    by_cases h0 : (k + 1) % 8 = 0
    · rw [h0]; exact inv_first m c ⟨k + 1, h⟩ h0 b hb
    · have hn : k % 8 + 1 = (k + 1) % 8 := by omega
      have ih := inv_all c k (Nat.lt_of_succ_lt h) b (by omega)
      rw [← hn]
      exact inv_next m c ⟨k + 1, h⟩ h0 b hb (k % 8) hn ih

/-- After a batch's last tile the output block holds the batch's value. -/
theorem out_last (c : Dev nD) (t : Fin cfg0.N) (h7 : t.val % 8 = 7) (b : Fin 4) (hb : b.val = t.val / 8) :
    (outsAt0 m c t.val t.isLt).1 (ix3 (0 : Fin 1) (0 : Fin 1) (0 : Fin 1)) = perBatch (tplArr m c) (srcArr m c) b := by
  have h := (inv_all m c t.val t.isLt b hb).2.2
  rw [h7] at h
  rw [h, show 512 * (7 + 1) = 4096 from rfl, partSum_all, Finset.sum_congr rfl fun j _ => partMin_all (colDist m c b j)]
  rfl

end Cert.KernelIdeal.Invariant

end
-- ==== Proof.KValue.lean ====
/-
  The kernel's run, read: its result is the mean over the four batches of the batches' chamfer values of the two
  arrays the region finds, which are the two inputs divided by one.

  The output window's block for batch b is written back once, after the batch's last tile, when it holds the batch's
  value; the four blocks are the four entries of the [4, 1, 1] array. The lines after the region reshape it to four
  entries, sum them from zero and divide by four.
-/
import proofs.«129061_j11063835755244_1_alg».proof.Proof.Gen.KernelIdeal.Frame
import proofs.«129061_j11063835755244_1_alg».proof.Proof.Invariant
import Idealize.ShloMosaic.Lib.Pipeline.Value
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.ShloMosaic.ValueIdx Cert.KernelIdeal Cert.KernelIdeal.Gen
open Idealize.SL Idealize.SL.Sem
open Idealize.ShloMosaic.Pipeline (Dat)
open Cert.Chamfer Cert.KernelIdeal.Blocks Cert.KernelIdeal.Invariant

variable (m : (ℓ : Loc nD τ sig) → Buf (Elt Ideal) ℓ) (ρ : Dev nD → PrngReg)

/-- The [4, 1, 1] array of the batches' values. -/
def result (c : Dev nD) : Buf (Elt Ideal) ((c : Thread nD τ).loc main_v4) :=
  fun i : S4x1x1.Idx => perBatch (tplArr m c) (srcArr m c) (i 0)

/-- A [1, 1, 1] block has one index. -/
theorem one_idx (z : S1x1x1.Idx) : z = ix3 (0 : Fin 1) (0 : Fin 1) (0 : Fin 1) :=
  funext fun a => Fin.ext (by
    match a with
    | ⟨0, _⟩ => show (z 0).val = 0; have : (z 0).val < 1 := (z 0).isLt; omega
    | ⟨1, _⟩ => show (z 1).val = 0; have : (z 1).val < 1 := (z 1).isLt; omega
    | ⟨2, _⟩ => show (z 2).val = 0; have : (z 2).val < 1 := (z 2).isLt; omega)

/-- The output block has one entry along every axis at every point. -/
theorem xsize_out : ∀ t : Fin cfg0.N, ∀ a : Fin 3, win0_2.xsize (grid0.coords t) a = 1 :=
  (by decide +kernel : ∀ t : Fin grid0.N, ∀ a : Fin 3, win0_2.xsize (grid0.coords t) a = 1)

/-- What a point that writes the output back writes: the batch's entry of the array of values. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have hN : t.val < 32 := lt_of_lt_of_eq t.isLt (show cfg0.N = 32 from N_0)
  obtain ⟨i0, -, -⟩ := index_out t
  show (cfg0.win 2).cut (grid0.coords t) ((dats m 0 c).after 2 t) = _
  rw [after0_2]
  funext y
  have hy0 : (y 0).val = 0 := by
    have h : (y 0).val < win0_2.xsize (grid0.coords t) 0 := (y 0).isLt
    rw [xsize_out t 0] at h; omega
  show (outsAt0 m c t.val t.isLt).1 ((cfg0.win 2).xinj (grid0.coords t) y) = result m c (((cfg0.win 2).blk t).view.emb y)
  rw [one_idx ((cfg0.win 2).xinj (grid0.coords t) y), out_last m c t h7 ⟨t.val / 8, by omega⟩ rfl]
  unfold result
  refine congrArg (perBatch (tplArr m c) (srcArr m c)) (Fin.ext ?_)
  show t.val / 8 = win0_2.index t 0 * 1 + 1 * (y 0).val
  rw [i0, hy0]; omega

omit m in
/-- Every entry of the array is some writing point's block: batch b's at the batch's last tile. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : ℕ) < 4 := (i 0).isLt
  have hi1 : (i 1 : ℕ) < 1 := (i 1).isLt
  have hi2 : (i 2 : ℕ) < 1 := (i 2).isLt
  have hN : cfg0.N = 32 := N_0
  have ht : 8 * (i 0 : ℕ) + 7 < cfg0.N := by rw [hN]; omega
  refine ⟨⟨8 * (i 0 : ℕ) + 7, ht⟩, (flush0_2 _).mpr (by show (8 * (i 0 : ℕ) + 7) % 8 = 7; omega), ?_⟩
  obtain ⟨j0, j1, j2⟩ := index_out ⟨8 * (i 0 : ℕ) + 7, ht⟩
  show i ∈ ((View.whole main_v4).slice (win0_2.rect ⟨8 * (i 0 : ℕ) + 7, ht⟩)).set
  rw [View.set_slice_whole, Rect.mem_set_unit]
  intro a
  match a with
  | ⟨0, _⟩ =>
    show win0_2.index _ 0 * win0_2.size 0 ≤ (i 0 : ℕ) ∧ (i 0 : ℕ) < win0_2.index _ 0 * win0_2.size 0 + win0_2.xsize (grid0.coords _) 0
    rw [j0, xsize_out _ 0]; show (8 * (i 0 : ℕ) + 7) / 8 * 1 ≤ (i 0 : ℕ) ∧ (i 0 : ℕ) < (8 * (i 0 : ℕ) + 7) / 8 * 1 + 1; omega
  | ⟨1, _⟩ =>
    show win0_2.index _ 1 * win0_2.size 1 ≤ (i 1 : ℕ) ∧ (i 1 : ℕ) < win0_2.index _ 1 * win0_2.size 1 + win0_2.xsize (grid0.coords _) 1
    rw [j1, xsize_out _ 1]; omega
  | ⟨2, _⟩ =>
    show win0_2.index _ 2 * win0_2.size 2 ≤ (i 2 : ℕ) ∧ (i 2 : ℕ) < win0_2.index _ 2 * win0_2.size 2 + win0_2.xsize (grid0.coords _) 2
    rw [j2, xsize_out _ 2]; omega

/-- So the output array ends holding the four batches' values. -/
theorem final (c : Dev nD) : (dats m 0 c).arrAt 2 cfg0.N = result m c :=
  (dats m 0 c).arrAt_eq_of_cover 2 (result m c) (flushed_eq m c) (cover c)

/-- Reshaped to four entries it is the vector of the batches' values. -/
theorem reshape_result (c : Dev nD) :
    shapeCast S4 (result m c) shapeCasts_S4x1x1_S4 = perBatchVec (tplArr m c) (srcArr m c) := by
  funext i
  obtain ⟨b, rfl⟩ : ∃ b : Fin 4, i = ix1 b := ⟨i 0, eq_ix1 i⟩
  refine (shapeCast_apply (result m c) shapeCasts_S4x1x1_S4 (ix1 b) (ix3 b (0 : Fin 1) (0 : Fin 1)) ?_).trans rfl
  show ((⟨3, ![4, 1, 1]⟩ : Shape).rowMajor (ix3 b (0 : Fin 1) (0 : Fin 1))).val = ((⟨1, ![4]⟩ : Shape).rowMajor (ix1 b)).val
  rw [Shape.rowMajor_val_one, Shape.rowMajor_val_three]
  show (b.val * 1 + 0) * 1 + 0 = b.val
  omega

/-- The template array the region finds is the first input divided by the splat of one. -/
theorem tplArr_eq (c : Dev nD) :
    tplArr m c = Host.divf (F := Ideal) (m ((c : Thread nD τ).loc main_arg0))
      (broadcastInDim S4x4096x3 ![] bcast_S_S4x4096x3 (constant (F := Ideal) S_ .f32 0x3F800000#32)) := by
  show StableHlo.after hostOps0 (fun b => m (c, b)) (Proc.devRef .tc main_v1) = _
  after_results

/-- The source array the region finds is the second input divided by the splat of one. -/
theorem srcArr_eq (c : Dev nD) :
    srcArr m c = Host.divf (F := Ideal) (m ((c : Thread nD τ).loc main_arg1))
      (broadcastInDim S4x4096x3 ![] bcast_S_S4x4096x3 (constant (F := Ideal) S_ .f32 0x3F800000#32)) := by
  show StableHlo.after hostOps0 (fun b => m (c, b)) (Proc.devRef .tc main_v3) = _
  after_results

/-- What the lines after the region leave in the result. -/
theorem tail_eq (c : Dev nD) :
    Pipeline.afterTail₀ cfgs (dats m) 0 (V0 m) [hostOps1] c main_v7
      = Host.divf (F := Ideal) (Host.reduceAdd (F := Ideal) (shapeCast S4 ((dats m 0 c).arrAt 2 cfg0.N) shapeCasts_S4x1x1_S4)
          (constant (F := Ideal) S_ .f32 0x00000000#32) reducesTo_S4_S_d0 h_S_) (constant (F := Ideal) S_ .f32 0x40800000#32) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.tc.devRef main_v4)
      = (dats m 0 c).arrAt 2 cfg0.N from Pipeline.withArrays_arr spec0 launch0.win.arr_inj c _ _ 2]
  rfl

/-- The run, read: the result at the mean of the four batches' values, the inputs unchanged. -/
theorem run : θ_run defs (onTc (τ := τ) (main (F := Ideal))) ⟨m, fun _ => 0, ρ⟩ fun r => ∀ c : Dev nD,
      r.2.mem ((c : Thread nD τ).loc main_v7)
        = Host.divf (F := Ideal) (Host.reduceAdd (F := Ideal) (perBatchVec (tplArr m c) (srcArr m c))
            (constant (F := Ideal) S_ .f32 0x00000000#32) reducesTo_S4_S_d0 h_S_) (constant (F := Ideal) S_ .f32 0x40800000#32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v7 (Pipeline.mem_restRefs_of main_v7 (by decide) (by decide))).trans
        ((tail_eq m c).trans (by rw [final m c, reshape_result m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's four per-batch values are the chamfer values of its two divided inputs.

  The reference forms, for every batch, the full 4096 × 4096 table |t|² + |s|² − 2·⟨t, s⟩ (the squared norms by sums
  over the three coordinates, the inner products by a batched product), takes its minima along the source points
  and along the template points, and adds the two means. Read entry by entry that is the per-batch value of the
  specification at the divided inputs.
-/
import proofs.«129061_j11063835755244_1_alg».proof.Proof.Gen.ReferenceIdeal.Read
import proofs.«129061_j11063835755244_1_alg».proof.Proof.Spec
import proofs.«129061_j11063835755244_1_alg».proof.Proof.Tiles
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-- The table's entry for template point `r` and source point `j` of batch `b` is the expanded squared distance
    between the two points of the divided inputs. -/
private theorem table_apply (x0 x1 : (⟨S4x4096x3, .f32⟩ : BufTy).Contents (Elt Ideal)) (b : Fin 4) (r j : Fin 4096) :
    val_main_v16 (F := Ideal) x0 x1 (ix3 b r j)
      = Cert.Chamfer.sqd (val_main_v1 (F := Ideal) x0) (val_main_v3 (F := Ideal) x1) b r j := by
  have e5 : ∀ k : Fin 3, idx_main_v5 (idx_main_v6 (idx_main_v11 (ix3 b r j))) k = ix3 b r k := fun k =>
    funext fun a => Fin.ext (by match a with | ⟨0, _⟩ => rfl | ⟨1, _⟩ => rfl | ⟨2, _⟩ => rfl)
  have e8 : ∀ k : Fin 3, idx_main_v8 (idx_main_v9 (idx_main_v12 (ix3 b r j))) k = ix3 b j k := fun k =>
    funext fun a => Fin.ext (by match a with | ⟨0, _⟩ => rfl | ⟨1, _⟩ => rfl | ⟨2, _⟩ => rfl)
  have el : ∀ k : Fin 3, lidx_main_v10 (ix3 b r j) k = ix3 b r k := fun k =>
    funext fun a => Fin.ext (by match a with | ⟨0, _⟩ => rfl | ⟨1, _⟩ => rfl | ⟨2, _⟩ => rfl)
  have er : ∀ k : Fin 3, ridx_main_v10 (ix3 b r j) k = ix3 b j k := fun k =>
    funext fun a => Fin.ext (by match a with | ⟨0, _⟩ => rfl | ⟨1, _⟩ => rfl | ⟨2, _⟩ => rfl)
  rw [val_main_v16_apply, val_main_v13_apply, val_main_v15_apply, val_main_v11_apply, val_main_v12_apply,
    val_main_v6_apply, val_main_v9_apply, val_main_v5_apply, val_main_v8_apply, val_main_v10_apply,
    val_main_v14_apply, val_main_cst_1_apply, val_main_cst_2_apply, val_main_cst_3_apply]
  simp only [val_main_v4_apply, val_main_v7_apply, e5, e8, el, er, Ideal.ofBits_def, Ideal.addf_def, Ideal.subf_def,
    Ideal.mulf_def, Ideal.ofBits_zero_f32, zero_add]
  rfl

/-- The minimum along the source points, read at batch `b` and template point `r`: the fold of the binary minimum
    from the initial value over the source points. -/
private theorem min_sources (y : (⟨S4x4096x4096, .f32⟩ : BufTy).Contents (Elt Ideal))
    (init : (⟨S_, .f32⟩ : BufTy).Contents (Elt Ideal)) (b : Fin 4) (r : Fin 4096) :
    Host.reduce (FloatOps.minimumf (F := Ideal) (φ := .f32)) y init reducesTo_S4x4096x4096_S4x4096_d2 h_S_ (ix2 b r)
      = (Finset.univ : Finset (Fin 4096)).fold min (init (Shape.Idx.first h_S_)) (fun j => y (ix3 b r j)) := by
  have h : S4x4096x4096.Reduces [2] S4x4096 := by decide
  refine (Host.reduce_eq_fold_single _ y init reducesTo_S4x4096x4096_S4x4096_d2 h h_S_ (ix2 b r)).trans ?_
  have e : (y ∘ h.lift (ix2 b r)) = fun j : Fin 4096 => y (ix3 b r j) := funext fun j =>
    congrArg y (funext fun a => Fin.ext (by match a with | ⟨0, _⟩ => rfl | ⟨1, _⟩ => rfl | ⟨2, _⟩ => rfl))
  rw [e]
  rfl

/-- The minimum along the template points, read at batch `b` and source point `j`. -/
private theorem min_templates (y : (⟨S4x4096x4096, .f32⟩ : BufTy).Contents (Elt Ideal))
    (init : (⟨S_, .f32⟩ : BufTy).Contents (Elt Ideal)) (b : Fin 4) (j : Fin 4096) :
    Host.reduce (FloatOps.minimumf (F := Ideal) (φ := .f32)) y init reducesTo_S4x4096x4096_S4x4096_d1 h_S_ (ix2 b j)
      = (Finset.univ : Finset (Fin 4096)).fold min (init (Shape.Idx.first h_S_)) (fun r => y (ix3 b r j)) := by
  have h : S4x4096x4096.Reduces [1] S4x4096 := by decide
  refine (Host.reduce_eq_fold_single _ y init reducesTo_S4x4096x4096_S4x4096_d1 h h_S_ (ix2 b j)).trans ?_
  have e : (y ∘ h.lift (ix2 b j)) = fun r : Fin 4096 => y (ix3 b r j) := funext fun r =>
    congrArg y (funext fun a => Fin.ext (by match a with | ⟨0, _⟩ => rfl | ⟨1, _⟩ => rfl | ⟨2, _⟩ => rfl))
  rw [e]
  rfl

/-- Every template point's nearest source point. -/
private theorem nearest_source (x0 x1 : (⟨S4x4096x3, .f32⟩ : BufTy).Contents (Elt Ideal)) (b : Fin 4) (r : Fin 4096) :
    val_main_v17 (F := Ideal) x0 x1 (ix2 b r)
      = Finset.univ.inf fun j : Fin 4096 =>
          Cert.Chamfer.sqd (val_main_v1 (F := Ideal) x0) (val_main_v3 (F := Ideal) x1) b r j := by
  unfold val_main_v17
  rw [min_sources, val_main_cst_4_apply, Ideal.ofBits_def, Cert.Chamfer.fold_min_eq_inf]
  exact congrArg _ (funext fun j => table_apply x0 x1 b r j)

/-- Every source point's nearest template point. -/
private theorem nearest_template (x0 x1 : (⟨S4x4096x3, .f32⟩ : BufTy).Contents (Elt Ideal)) (b : Fin 4) (j : Fin 4096) :
    val_main_v18 (F := Ideal) x0 x1 (ix2 b j)
      = Finset.univ.inf fun r : Fin 4096 =>
          Cert.Chamfer.sqd (val_main_v1 (F := Ideal) x0) (val_main_v3 (F := Ideal) x1) b r j := by
  unfold val_main_v18
  rw [min_templates, val_main_cst_5_apply, Ideal.ofBits_def, Cert.Chamfer.fold_min_eq_inf]
  exact congrArg _ (funext fun r => table_apply x0 x1 b r j)

/-- The reference's vector of per-batch values (the operand of its last sum) is the specification's, at the
    two inputs after their division by one. -/
theorem perBatch_eq (x0 x1 : (⟨S4x4096x3, .f32⟩ : BufTy).Contents (Elt Ideal)) :
    val_main_v25 (F := Ideal) x0 x1
      = Cert.Chamfer.perBatchVec (val_main_v1 (F := Ideal) x0) (val_main_v3 (F := Ideal) x1) := by
  funext i
  obtain ⟨b, rfl⟩ : ∃ b : Fin 4, i = ix1 b := ⟨i 0, eq_ix1 i⟩
  have e19 : ∀ k : Fin 4096, idx_main_v19 (ix1 b) k = ix2 b k := fun k =>
    funext fun a => Fin.ext (by match a with | ⟨0, _⟩ => rfl | ⟨1, _⟩ => rfl)
  have e22 : ∀ k : Fin 4096, idx_main_v22 (ix1 b) k = ix2 b k := fun k =>
    funext fun a => Fin.ext (by match a with | ⟨0, _⟩ => rfl | ⟨1, _⟩ => rfl)
  rw [val_main_v25_apply, val_main_v21_apply, val_main_v24_apply, val_main_v19_apply, val_main_v22_apply,
    val_main_v20_apply, val_main_v23_apply, val_main_cst_6_apply, val_main_cst_8_apply, val_main_cst_7_apply,
    val_main_cst_9_apply]
  simp only [e19, e22, nearest_source, nearest_template, Ideal.ofBits_def, Ideal.addf_def, Ideal.hostDivf_def,
    Ideal.ofBits_zero_f32, zero_add]
  rfl

end Cert.ReferenceIdeal.RefValue

end
-- ==== Proof.lean ====
/-
  The kernel computes a chamfer distance between two clouds of points, batch by batch and 512 template points at a
  time, keeping a running total of the template points' nearest distances and running minima of the source points'
  nearest distances in two buffers carried from tile to tile; the reference computes the same from the full table
  of squared distances |t|² + |s|² − 2·⟨t, s⟩. Over the extended reals the two agree: a change of float format is
  the identity, the matrix product into a zero accumulator is the sum of products, and sums and minima may be taken
  in any grouping. Both programs end with the same mean over the four batches.

  The frames of the two kernel programs are the generated ones; the reference's frame is its run with the result
  dropped. The idealization rewrote nothing. The value claim joins the kernel's run (the carried buffers followed
  point by point) and the reference's run (read entry by entry) at the specification's per-batch values.
-/
import proofs.«129061_j11063835755244_1_alg».proof.Defs
import proofs.«129061_j11063835755244_1_alg».proof.Proof.Gen.Kernel
import proofs.«129061_j11063835755244_1_alg».proof.Proof.Gen.Kernel.Skeleton
import proofs.«129061_j11063835755244_1_alg».proof.Proof.Gen.Kernel.Launch
import proofs.«129061_j11063835755244_1_alg».proof.Proof.Gen.Kernel.Points
import proofs.«129061_j11063835755244_1_alg».proof.Proof.Gen.Kernel.Frame
import proofs.«129061_j11063835755244_1_alg».proof.Proof.Gen.KernelIdeal
import proofs.«129061_j11063835755244_1_alg».proof.Proof.Gen.KernelIdeal.Skeleton
import proofs.«129061_j11063835755244_1_alg».proof.Proof.Gen.KernelIdeal.Launch
import proofs.«129061_j11063835755244_1_alg».proof.Proof.Gen.KernelIdeal.Points
import proofs.«129061_j11063835755244_1_alg».proof.Proof.Gen.KernelIdeal.Frame
import proofs.«129061_j11063835755244_1_alg».proof.Proof.Gen.ReferenceIdeal
import proofs.«129061_j11063835755244_1_alg».proof.Proof.Gen.ReferenceIdeal.Run
import proofs.«129061_j11063835755244_1_alg».proof.Proof.Gen.ReferenceIdeal.Read
import proofs.«129061_j11063835755244_1_alg».proof.Proof.Gen.Pre_finite_inputs
import proofs.«129061_j11063835755244_1_alg».proof.Proof.KValue
import proofs.«129061_j11063835755244_1_alg».proof.Proof.RefValue
import Idealize.ShloMosaic.Adequacy
import Idealize.ShloMosaic.Init

noncomputable section

namespace Cert.Proof

open Idealize.ShloMosaic Idealize.SL.Sem

/-- The reference runs and leaves its arguments as they were: its run, the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- At the ideal values both programs end at the mean over the four batches of the batches' chamfer values of the
    two inputs divided by one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  unfold Cert.ReferenceIdeal.Read.val_main_v27 Cert.ReferenceIdeal.Read.val_main_v26
  rw [Cert.ReferenceIdeal.RefValue.perBatch_eq, Cert.KernelIdeal.KValue.tplArr_eq, Cert.KernelIdeal.KValue.srcArr_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
